-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8128x4096 : Shape := ⟨2, ![8128, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8128x4096 : S_.BroadcastsInDim S8128x4096 (![] : Fin 0 → Fin S8128x4096.rank)
  reducesTo_S8128x4096_S_d0_1 : S8128x4096.ReducesTo [0, 1] S_

variable [Facts]

def fn {F : FTy → Type} [FloatOps F] (main_arg0 : FVec F S4096x4096 .f32) (main_arg1 : FVec F S8128x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S8128x4096 .f32 := Host.absf main_arg1
  let main_cst_0 : FVec F S_ .f32 := constant S_ .f32 0x7F800000#32
  let main_v5 : FVec F S8128x4096 .f32 := broadcastInDim S8128x4096 ![] bcast_S_S8128x4096 main_cst_0
  let main_v6 : IVec S8128x4096 1 := cmpf .olt main_v4 main_v5
  let main_c_1 : IVec S_ 1 := constantI S_ 1 1#1
  let main_v7 : IVec S_ 1 := (fun x v => Host.reduce IntOp.andi x v reducesTo_S8128x4096_S_d0_1 h_S_) main_v6 main_c_1
  let main_v8 : IVec S_ 1 := andi main_v3 main_v7
  main_v8
-- ==== Kernel.lean ====
abbrev S4096x4096 : Shape := ⟨2, ![4096, 4096]⟩
abbrev S8128x4096 : Shape := ⟨2, ![8128, 4096]⟩
abbrev S_ : Shape := ⟨0, ![]⟩
abbrev S8192x4096 : Shape := ⟨2, ![8192, 4096]⟩
abbrev S4096x8192 : Shape := ⟨2, ![4096, 8192]⟩
abbrev S4096x8128 : Shape := ⟨2, ![4096, 8128]⟩
abbrev S1024x256 : Shape := ⟨2, ![1024, 256]⟩
abbrev S2048x256 : Shape := ⟨2, ![2048, 256]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S8128x4096, .f32⟩
  | .hbm, ⟨2, _⟩ => ⟨S_, .i32⟩
  | .hbm, ⟨3, _⟩ => ⟨S_, .f32⟩
  | .hbm, ⟨4, _⟩ => ⟨S8192x4096, .f32⟩
  | .hbm, ⟨5, _⟩ => ⟨S4096x8192, .f32⟩
  | .hbm, ⟨6, _⟩ => ⟨S4096x8128, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S2048x256, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_call0_v0 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  pads_S8128x4096_S8192x4096_0640_000 : S8128x4096.Pads (![0, 0] : Fin 2 → Nat) ![64, 0] ![0, 0] S8192x4096
  h_S_ : 0 < S_.numel
  slices_S4096x8192_S4096x8128_0_0 : S4096x8192.Slices ![0, 0] S4096x8128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .f32 = 32 ∨ (Rect.block (s := S4096x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x4096.size a
  hwx0_1 : ∀ i : grid0.Coords, EltTy.bits .f32 = 32 ∨ (Rect.block (s := S8192x4096) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x8192.size a
  hwx0_2 : ∀ i : grid0.Coords, EltTy.bits .f32 = 32 ∨ (Rect.block (s := S4096x8192) S1024x2048.size (cc0_transform_2 i) (hinb0_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S8128x4096 : Shape := ⟨2, ![8128, 4096]⟩
abbrev S4096x8128 : Shape := ⟨2, ![4096, 8128]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8128x4096, .f32⟩
  | .hbm, ⟨2, _⟩ => ⟨S4096x8128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S8128x4096_S4096x8128_1_1_0_0_n_n_wf : DotDims.WF S4096x4096 S8128x4096 S4096x8128 [1] [1] [0] [0] [] []

variable [Facts₀]

def dot_S4096x4096_S8128x4096_S4096x8128_1_1_0_0_n_n : DotDims S4096x4096 S8128x4096 S4096x8128 where
  lhsContracting := [1]
  rhsContracting := [1]
  lhsNonContracting := [0]
  rhsNonContracting := [0]
  lhsBatch := []
  rhsBatch := []
  wf := dot_S4096x4096_S8128x4096_S4096x8128_1_1_0_0_n_n_wf

class Facts : Prop extends Facts₀ where

variable [Facts]
-- ==== Proof.Pieces.lean ====
/- What each control case of the body leaves behind, as a value, for any float instance. The body always ends
   with the accumulator (the scratch block) overwritten whole by one step of its arithmetic:
   at a run's first point the step starts from the zero block the reset has just stored; at the other points it
   starts from what the point before left; and at a run's last point the output block is stored with the
   accumulator just written. -/
import proofs.«115382_j3298534883714_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every access of the body is at offset zero on both axes. -/
theorem hz : (![0, 0] : Fin 2 → Nat) = fun _ => 0 := funext fun a => by fin_cases a <;> rfl

/-- First point of a run (reset, then step): the accumulator ends at one step from the zero block. -/
theorem scratch_first (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i) (x0 : Vec F S1024x256 .f32) (x1 : Vec F S2048x256 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, View.ld_unit_zero (S := S1024x256) hz,
    View.ld_unit_zero (S := S2048x256) hz]

/-- A middle point of a run: one step from what the accumulator held. -/
theorem scratch_middle (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i) (x0 : Vec F S1024x256 .f32) (x1 : Vec F S2048x256 .f32) (xs0 : Vec F S1024x2048 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x256) hz,
    View.ld_unit_zero (S := S2048x256) hz, View.ld_unit_zero (S := S1024x2048) hz]

/-- The last point of a run: the same step for the accumulator, -/
theorem scratch_last (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i) (x0 : Vec F S1024x256 .f32) (x1 : Vec F S2048x256 .f32) (xs0 : Vec F S1024x2048 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x256) hz,
    View.ld_unit_zero (S := S2048x256) hz, View.ld_unit_zero (S := S1024x2048) hz]

/-- and the output block is stored with that accumulator. -/
theorem out_last (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i) (x0 : Vec F S1024x256 .f32) (x1 : Vec F S2048x256 .f32) (xs0 : Vec F S1024x2048 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x2048) _ hz]
  simp only [View.readAt_eq_ld, harg3.read_unread, harg4.read_unread, harg6.read_unread, View.ld_unit_zero (S := S1024x256) hz,
    View.ld_unit_zero (S := S2048x256) hz, View.ld_unit_zero (S := S1024x2048) hz]

end Cert.KernelIdeal.Pieces

end
-- ==== Proof.Payload.lean ====
/- The kernel body's arithmetic read at one entry `(p, q)` of its 1024×2048 block, over the extended reals:
   the reset stores zero, and a step stores the accumulator's entry plus `∑ₖ x[p,k]·w[q,k]` over the 256
   contraction indices of the two loaded blocks (the narrowing of the operands to bf16 is the identity on
   extended reals, and the matrix unit starts from a zero block). -/
import proofs.«115382_j3298534883714_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The output entry's row is the left operand's row, -/
theorem lhs_axis0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
/-- the contraction index is its column; -/
theorem lhs_axis1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
/-- the output entry's column is the right operand's row, -/
theorem rhs_axis0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
/-- and the contraction index its column too: both operands are contracted along their second axis. -/
theorem rhs_axis1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- The matrix product into a zero block, at an entry: `∑ₖ x[p,k]·w[q,k]`. -/
theorem matmul_zero_apply (x : FVec Ideal S1024x256 .bf16) (w : FVec Ideal S2048x256 .bf16) (p : Fin 1024) (q : Fin 2048) :
    matmul (F := Ideal) dot_S1024x256_S2048x256_S1024x2048_1_1_0_0_n_n none x w (constant (F := Ideal) S1024x2048 .f32 0x00000000#32) (ix2 p q)
      = ∑ k : Fin 256, x (ix2 p k) * w (ix2 q k) := by
  simp only [matmul]
  rw [Ideal.matmul_constant_zero_apply, ← Equiv.sum_comp (ValueIdx.contrEquiv1 dot_S1024x256_S2048x256_S1024x2048_1_1_0_0_n_n 256 rfl rfl).symm]
  refine Finset.sum_congr rfl fun k _ => ?_
  have hk := ValueIdx.contrEquiv1_symm_val dot_S1024x256_S2048x256_S1024x2048_1_1_0_0_n_n 256 rfl rfl k
  have el : dot_S1024x256_S2048x256_S1024x2048_1_1_0_0_n_n.lhsIdx (ix2 p q) ((ValueIdx.contrEquiv1 dot_S1024x256_S2048x256_S1024x2048_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S1024x256_S2048x256_S1024x2048_1_1_0_0_n_n.rhsIdx (ix2 p q) ((ValueIdx.contrEquiv1 dot_S1024x256_S2048x256_S1024x2048_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-- A step's stored block at an entry: what the accumulator held there plus the product's entry. -/
theorem step_apply (x : Vec Ideal S1024x256 .f32) (w : Vec Ideal S2048x256 .f32) (acc : Vec Ideal S1024x2048 .f32)
    (p : Fin 1024) (q : Fin 2048) :
    k0_pay2 (F := Ideal) x w acc (ix2 p q) = acc (ix2 p q) + ∑ k : Fin 256, x (ix2 p k) * w (ix2 q k) := by
  unfold k0_pay2
  simp only [shapeCast_self]
  rw [addf_apply, matmul_zero_apply]
  rfl

/-- The reset's stored block is zero everywhere. -/
theorem reset_apply (p : Fin 1024) (q : Fin 2048) : k0_pay1 (F := Ideal) (ix2 p q) = 0 := by
  unfold k0_pay1
  simp only [shapeCast_self]
  exact Ideal.ofBits_zero_f32

end Cert.KernelIdeal.Body

end
-- ==== Proof.BlockSum.lean ====
/- The contraction `∑ₖ A[b,k]·B[o,k]` over 4096 terms, and its grouping into sixteen consecutive runs of 256:
   the only algebra the two sides differ by. Addition of extended reals is a commutative monoid, so the
   grouping holds for every input, finite or not. Indices are written with a reduction modulo the extent, which
   is the identity on every index that occurs and spares every definition a bound. -/
import Idealize.ShloMosaic.Lib.ValueIdx
import Idealize.ShloMosaic.PureOps.Ideal.Laws

noncomputable section

namespace Cert.Einsum

open Idealize.ShloMosaic Idealize.ShloMosaic.ValueIdx

/-- A sum over `a * b` consecutive naturals is the sum over `a` runs of `b`. -/
theorem sum_range_mul {M : Type*} [AddCommMonoid M] (a b : ℕ) (f : ℕ → M) :
    ∑ k ∈ Finset.range (a * b), f k = ∑ i ∈ Finset.range a, ∑ j ∈ Finset.range b, f (b * i + j) := by
  induction a with
  | zero => simp
  | succ a ih =>
    rw [Nat.succ_mul, Finset.sum_range_add, ih, Finset.sum_range_succ, Nat.mul_comm a b]

/-- Row `p` of the row block that run `r` (of sixteen grid points) works on: row `1024·(r/4) + p`. -/
def rowIx (r : ℕ) (p : Fin 1024) : Fin 4096 := ⟨(1024 * (r / 4) + p.val) % 4096, Nat.mod_lt _ (by decide)⟩
/-- Column `q` of that run's column block: column `2048·(r%4) + q`. -/
def colIx (r : ℕ) (q : Fin 2048) : Fin 8192 := ⟨(2048 * (r % 4) + q.val) % 8192, Nat.mod_lt _ (by decide)⟩
/-- Contraction index `kk` of contraction block `kb`: `256·kb + kk`. -/
def kIx (kb : ℕ) (kk : Fin 256) : Fin 4096 := ⟨(256 * kb + kk.val) % 4096, Nat.mod_lt _ (by decide)⟩

theorem rowIx_val (r : ℕ) (p : Fin 1024) : (rowIx r p).val = (1024 * (r / 4) + p.val) % 4096 := rfl
theorem colIx_val (r : ℕ) (q : Fin 2048) : (colIx r q).val = (2048 * (r % 4) + q.val) % 8192 := rfl
theorem kIx_val (kb : ℕ) (kk : Fin 256) : (kIx kb kk).val = (256 * kb + kk.val) % 4096 := rfl

/-- A sum over the 4096 contraction indices, block by block. -/
theorem sum_fin_blocks {M : Type*} [AddCommMonoid M] (g : Fin 4096 → M) :
    ∑ k : Fin 4096, g k = ∑ kb ∈ Finset.range 16, ∑ kk : Fin 256, g (kIx kb kk) := by
  let f : ℕ → M := fun n => g ⟨n % 4096, Nat.mod_lt _ (by decide)⟩
  have h1 : ∑ k : Fin 4096, g k = ∑ k : Fin 4096, f k.val :=
    Finset.sum_congr rfl fun k _ => congrArg g (Fin.ext (Nat.mod_eq_of_lt k.isLt).symm)
  have h2 : ∑ k : Fin 4096, f k.val = ∑ n ∈ Finset.range 4096, f n := Fin.sum_univ_eq_sum_range f 4096
  have h3 : ∑ n ∈ Finset.range 4096, f n = ∑ i ∈ Finset.range 16, ∑ j ∈ Finset.range 256, f (256 * i + j) :=
    sum_range_mul 16 256 f
  have h4 : ∀ i, ∑ j ∈ Finset.range 256, f (256 * i + j) = ∑ kk : Fin 256, g (kIx i kk) := fun i =>
    (Fin.sum_univ_eq_sum_range (fun j => f (256 * i + j)) 256).symm
  rw [h1, h2, h3]
  exact Finset.sum_congr rfl fun i _ => h4 i

/-- The product the kernel computes: row `b` of `A` against row `o` of the (padded) second operand. -/
def mm (A : (⟨2, ![4096, 4096]⟩ : Shape).Idx → EReal) (B : (⟨2, ![8192, 4096]⟩ : Shape).Idx → EReal)
    (b : Fin 4096) (o : Fin 8192) : EReal :=
  ∑ k : Fin 4096, A (ix2 b k) * B (ix2 o k)

/-- Contraction block `kb`'s share of entry `(p, q)` of run `r`'s output block. -/
def term (A : (⟨2, ![4096, 4096]⟩ : Shape).Idx → EReal) (B : (⟨2, ![8192, 4096]⟩ : Shape).Idx → EReal)
    (r kb : ℕ) (p : Fin 1024) (q : Fin 2048) : EReal :=
  ∑ kk : Fin 256, A (ix2 (rowIx r p) (kIx kb kk)) * B (ix2 (colIx r q) (kIx kb kk))

/-- The sixteen shares add up to the product's entry. -/
theorem sum_terms (A : (⟨2, ![4096, 4096]⟩ : Shape).Idx → EReal) (B : (⟨2, ![8192, 4096]⟩ : Shape).Idx → EReal)
    (r : ℕ) (p : Fin 1024) (q : Fin 2048) :
    ∑ kb ∈ Finset.range 16, term A B r kb p q = mm A B (rowIx r p) (colIx r q) :=
  (sum_fin_blocks fun k => A (ix2 (rowIx r p) k) * B (ix2 (colIx r q) k)).symm

end Cert.Einsum

end
-- ==== Proof.Blocks.lean ====
/- The input windows' blocks at a grid point, read at an entry. Point `t` of the 4×4×16 grid is
   `t = 64·i + 16·j + k`: it loads rows `1024·i …` and columns `256·k …` of the first operand, and rows
   `2048·j …`, columns `256·k …` of the zero-padded second operand. In terms of the run `r = t / 16 = 4·i + j`
   and the step `k = t % 16` these are the indices of the block sums. -/
import proofs.«115382_j3298534883714_1_alg».proof.Proof.Gen.KernelIdeal.Frame
import proofs.«115382_j3298534883714_1_alg».proof.Proof.BlockSum
import Idealize.ShloMosaic.Lib.Pipeline.Value

noncomputable section

namespace Cert.KernelIdeal.Blocks

open Cert.KernelIdeal Cert.KernelIdeal.Gen Cert.Einsum Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The first operand as the region finds it, -/
abbrev xarr (c : Dev nD) : Vec F S4096x4096 .f32 := V m c main_arg0
/-- the padded second operand as the region finds it, -/
abbrev warr (c : Dev nD) : Vec F S8192x4096 .f32 := V m c main_call0_v0
/-- and their blocks at point `t`. -/
abbrev xblk (c : Dev nD) (t : Fin cfg0.N) : Vec F S1024x256 .f32 := iblk m c 0 t
abbrev wblk (c : Dev nD) (t : Fin cfg0.N) : Vec F S2048x256 .f32 := iblk m c 1 t

/-- The three index maps in closed form, decided over the 256 grid points. -/
theorem index_maps : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = t.val / 64 ∧ win0_2.index t (1 : Fin 2) = t.val / 16 % 4 :=
  (by decide +kernel : ∀ t : Fin grid0.N, _)

theorem point_lt (t : Fin cfg0.N) : t.val < 256 := lt_of_lt_of_eq t.isLt (show cfg0.N = 256 from N_0)

/-- The first operand's block at an entry. -/
theorem xblk_apply (c : Dev nD) (t : Fin cfg0.N) (p : Fin 1024) (kk : Fin 256) :
    xblk m c t (ix2 p kk) = xarr m c (ix2 (rowIx (t.val / 16) p) (kIx (t.val % 16) kk)) := by
  obtain ⟨e0, e1, -, -, -, -⟩ := index_maps t
  have ht := point_lt t
  show ((cfg0.win 0).blk t).view.read (Elt F) (V m c (Pipeline.arrRef spec0 0)) (ix2 p kk) = _
  rw [View.read_apply]
  show V m c main_arg0 (((cfg0.win 0).blk t).view.emb (ix2 p kk)) = V m c main_arg0 _
  congr 1
  funext a; apply Fin.ext
  match a with
  | ⟨0, _⟩ =>
    show win0_0.index t (0 : Fin 2) * 1024 + 1 * p.val = (1024 * (t.val / 16 / 4) + p.val) % 4096
    have := p.isLt; omega
  | ⟨1, _⟩ =>
    show win0_0.index t (1 : Fin 2) * 256 + 1 * kk.val = (256 * (t.val % 16) + kk.val) % 4096
    have := kk.isLt; omega

/-- The padded second operand's block at an entry. -/
theorem wblk_apply (c : Dev nD) (t : Fin cfg0.N) (q : Fin 2048) (kk : Fin 256) :
    wblk m c t (ix2 q kk) = warr m c (ix2 (colIx (t.val / 16) q) (kIx (t.val % 16) kk)) := by
  obtain ⟨-, -, e0, e1, -, -⟩ := index_maps t
  have ht := point_lt t
  show ((cfg0.win 1).blk t).view.read (Elt F) (V m c (Pipeline.arrRef spec0 1)) (ix2 q kk) = _
  rw [View.read_apply]
  show V m c main_call0_v0 (((cfg0.win 1).blk t).view.emb (ix2 q kk)) = V m c main_call0_v0 _
  congr 1
  funext a; apply Fin.ext
  match a with
  | ⟨0, _⟩ =>
    show win0_1.index t (0 : Fin 2) * 2048 + 1 * q.val = (2048 * (t.val / 16 % 4) + q.val) % 8192
    have := q.isLt; omega
  | ⟨1, _⟩ =>
    show win0_1.index t (1 : Fin 2) * 256 + 1 * kk.val = (256 * (t.val % 16) + kk.val) % 4096
    have := kk.isLt; omega

end Cert.KernelIdeal.Blocks

end
-- ==== Proof.Accum.lean ====
/- The accumulator across the grid. The sixteen points `16·r … 16·r + 15` of run `r` share one output
   block; the accumulator is reset at the first, advanced by one product of 256 contraction indices at each, and
   copied to the output block at the last. So after point `n` the accumulator's entry `(p, q)` is the sum of the
   first `n % 16 + 1` block shares of run `n / 16` — by induction on the point —, and at a run's last point the
   output block's entry is the whole contraction. -/
import proofs.«115382_j3298534883714_1_alg».proof.Proof.Pieces
import proofs.«115382_j3298534883714_1_alg».proof.Proof.Payload
import proofs.«115382_j3298534883714_1_alg».proof.Proof.Blocks

noncomputable section

namespace Cert.KernelIdeal.Accum

open Cert.KernelIdeal Cert.KernelIdeal.Gen Cert.KernelIdeal.Blocks Cert.Einsum
open Idealize.ShloMosaic Idealize.ShloMosaic.TcCoe Idealize.SL.Sem Idealize.ShloMosaic.ValueIdx

/-! ## The case equations, for any float instance -/

section AnyInstance
variable {F : FTy → Type} [FloatOps F]
variable (m : (ℓ : Loc nD τ sig) → Buf (Elt F) ℓ)

/-- What the point before `t` left in the accumulator. -/
abbrev prev (c : Dev nD) (t : Fin cfg0.N) : Vec F S1024x2048 .f32 :=
  (outsAt0 m c (t.val - 1) (Nat.lt_of_le_of_lt (Nat.sub_le _ _) t.isLt)).2

theorem acc_first (c : Dev nD) (t : Fin cfg0.N) (h0 : t.val % 16 = 0) (h1 : ¬t.val % 16 = 15) :
    (outsAt0 m c t.val t.isLt).2 = k0_pay2 (xblk m c t) (wblk m c t) (k0_pay1 (F := F)) := by
  rw [outsAt0_A m c t h0 h1]
  dsimp only
  exact Pieces.scratch_first (F := F) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

theorem acc_middle (c : Dev nD) (t : Fin cfg0.N) (h0 : ¬t.val % 16 = 0) (h1 : ¬t.val % 16 = 15) :
    (outsAt0 m c t.val t.isLt).2 = k0_pay2 (xblk m c t) (wblk m c t) (prev m c t) := by
  rw [outsAt0_B m c t h0 h1]
  dsimp only
  exact Pieces.scratch_middle (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

theorem acc_last (c : Dev nD) (t : Fin cfg0.N) (h0 : ¬t.val % 16 = 0) (h1 : t.val % 16 = 15) :
    (outsAt0 m c t.val t.isLt).2 = k0_pay2 (xblk m c t) (wblk m c t) (prev m c t) := by
  rw [outsAt0_C m c t h0 h1]
  dsimp only
  exact Pieces.scratch_last (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

theorem out_last (c : Dev nD) (t : Fin cfg0.N) (h0 : ¬t.val % 16 = 0) (h1 : t.val % 16 = 15) :
    (outsAt0 m c t.val t.isLt).1 = k0_pay2 (xblk m c t) (wblk m c t) (prev m c t) := by
  rw [outsAt0_C m c t h0 h1]
  dsimp only
  exact Pieces.out_last (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end AnyInstance

/-! ## The values, over the extended reals -/

variable (m : (ℓ : Loc nD τ sig) → Buf (Elt Ideal) ℓ)

/-- One step's product at an entry is the block share of the point's run and step. -/
theorem step_value (c : Dev nD) (t : Fin cfg0.N) (acc : Vec Ideal S1024x2048 .f32) (p : Fin 1024) (q : Fin 2048) :
    k0_pay2 (F := Ideal) (xblk m c t) (wblk m c t) acc (ix2 p q)
      = acc (ix2 p q) + term (xarr m c) (warr m c) (t.val / 16) (t.val % 16) p q := by
  rw [Body.step_apply]
  unfold term
  refine congrArg (acc (ix2 p q) + ·) (Finset.sum_congr rfl fun kk _ => ?_)
  rw [xblk_apply, wblk_apply]

/-- After point `n` the accumulator holds the partial sums of run `n / 16` up to step `n % 16`. -/
theorem acc_apply (c : Dev nD) (n : ℕ) : ∀ (h : n < cfg0.N) (p : Fin 1024) (q : Fin 2048),
    (outsAt0 m c n h).2 (ix2 p q)
      = ∑ kb ∈ Finset.range (n % 16 + 1), term (xarr m c) (warr m c) (n / 16) kb p q := by
  induction n with
  | zero =>
    intro h p q
    refine (congrFun (acc_first m c ⟨0, h⟩ rfl (show ¬(0 % 16 = 15) by decide)) (ix2 p q)).trans ?_
    rw [step_value, Body.reset_apply, zero_add]
    show term _ _ (0 / 16) (0 % 16) p q = _
    rw [Finset.sum_range_succ, Finset.sum_range_zero, zero_add]
  | succ n ih =>
    intro h p q
    by_cases h0 : (n + 1) % 16 = 0
    · have h1 : ¬(n + 1) % 16 = 15 := by omega
      refine (congrFun (acc_first m c ⟨n + 1, h⟩ h0 h1) (ix2 p q)).trans ?_
      rw [step_value, Body.reset_apply, zero_add]
      show term _ _ ((n + 1) / 16) ((n + 1) % 16) p q = _
      rw [h0, Finset.sum_range_succ, Finset.sum_range_zero, zero_add]
    · have hstep : k0_pay2 (F := Ideal) (xblk m c ⟨n + 1, h⟩) (wblk m c ⟨n + 1, h⟩) (prev m c ⟨n + 1, h⟩) (ix2 p q)
          = ∑ kb ∈ Finset.range ((n + 1) % 16 + 1), term (xarr m c) (warr m c) ((n + 1) / 16) kb p q := by
        rw [step_value]
        show (outsAt0 m c n _).2 (ix2 p q) + term _ _ ((n + 1) / 16) ((n + 1) % 16) p q = _
        rw [ih, Finset.sum_range_succ _ ((n + 1) % 16), show (n + 1) / 16 = n / 16 by omega,
          show (n + 1) % 16 = n % 16 + 1 by omega]
      by_cases h1 : (n + 1) % 16 = 15
      · exact (congrFun (acc_last m c ⟨n + 1, h⟩ h0 h1) (ix2 p q)).trans hstep
      · exact (congrFun (acc_middle m c ⟨n + 1, h⟩ h0 h1) (ix2 p q)).trans hstep

/-- At a run's last point the stored output block is the product's block. -/
theorem out_apply (c : Dev nD) (t : Fin cfg0.N) (h1 : t.val % 16 = 15) (p : Fin 1024) (q : Fin 2048) :
    (outsAt0 m c t.val t.isLt).1 (ix2 p q)
      = mm (xarr m c) (warr m c) (rowIx (t.val / 16) p) (colIx (t.val / 16) q) := by
  have h0 : ¬t.val % 16 = 0 := by omega
  rw [out_last m c t h0 h1, ← acc_last m c t h0 h1, acc_apply m c t.val t.isLt p q, h1]
  exact sum_terms _ _ _ p q

end Cert.KernelIdeal.Accum

end
-- ==== Proof.Product.lean ====
/- The array the region leaves. Only a run's last point writes its output block back, and it writes the
   product's block; the sixteen runs' blocks tile the 4096×8192 array (run `r` owns rows `1024·(r/4) …`
   and columns `2048·(r%4) …`), so after the region the array is the product of the first operand with the
   zero-padded second one, entry by entry. -/
import proofs.«115382_j3298534883714_1_alg».proof.Proof.Accum

noncomputable section

namespace Cert.KernelIdeal.Product

open Cert.KernelIdeal Cert.KernelIdeal.Gen Cert.KernelIdeal.Blocks Cert.KernelIdeal.Accum Cert.Einsum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The padded product: entry `(b, o)` is `∑ₖ x[b,k]·w[o,k]` of the arrays the region finds. -/
def padded (c : Dev nD) : Buf (Elt Ideal) ((c : Thread nD τ).loc main_call0_v1) :=
  fun j => mm (xarr m c) (warr m c) (j 0) (j 1)

/-- What a run's last point writes back is its block of the padded product. -/
theorem flushed_eq (c : Dev nD) (t : Fin cfg0.N) (hf : (cfg0.win 2).flush t = true) :
    (dats m 0 c).flushed 2 t = ((cfg0.win 2).blk t).view.read (Elt Ideal) (padded m c) := by
  have h1 : t.val % 16 = 15 := (flush0_2 t).mp hf
  obtain ⟨-, -, -, -, e0, e1⟩ := index_maps t
  have ht := point_lt t
  show (cfg0.win 2).cut (grid0.coords t) ((dats m 0 c).after 2 t) = _
  rw [after0_2]
  funext y
  obtain ⟨p, q, rfl⟩ : ∃ (p : Fin 1024) (q : Fin 2048), y = ix2 p q := ⟨y 0, y 1, eq_ix2 y⟩
  show (outsAt0 m c t.val t.isLt).1 (ix2 p q) = padded m c (((cfg0.win 2).blk t).view.emb (ix2 p q))
  rw [out_apply m c t h1 p q]
  unfold padded
  congr 1 <;> apply Fin.ext
  · show (1024 * (t.val / 16 / 4) + p.val) % 4096 = win0_2.index t (0 : Fin 2) * 1024 + 1 * p.val
    have := p.isLt; omega
  · show (2048 * (t.val / 16 % 4) + q.val) % 8192 = win0_2.index t (1 : Fin 2) * 2048 + 1 * q.val
    have := q.isLt; omega

/-- An entry is in point `t`'s block iff each coordinate is in the block's range. -/
theorem mem_blk (t : Fin cfg0.N) (i : S4096x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_call0_v1).slice (win0_2.rect t)).set ↔ _
  rw [View.set_slice_whole, Rect.mem_set_unit]
  exact Iff.rfl

/-- Every entry lies in the block some run's last point writes back: the run of its row block and column block. -/
theorem cover (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  have hN : cfg0.N = 256 := N_0
  obtain ⟨n, hn⟩ : ∃ n, n = 64 * ((i 0).val / 1024) + 16 * ((i 1).val / 2048) + 15 := ⟨_, rfl⟩
  have hlt : n < cfg0.N := by rw [hN]; omega
  refine ⟨⟨n, hlt⟩, (flush0_2 ⟨n, hlt⟩).mpr (show n % 16 = 15 by omega), ?_⟩
  obtain ⟨-, -, -, -, e0, e1⟩ := index_maps ⟨n, hlt⟩
  rw [mem_blk]
  intro a
  match a with
  | ⟨0, _⟩ =>
    show win0_2.index ⟨n, hlt⟩ (0 : Fin 2) * 1024 ≤ (i 0).val ∧ (i 0).val < win0_2.index ⟨n, hlt⟩ (0 : Fin 2) * 1024 + 1024
    rw [e0]; show n / 64 * 1024 ≤ (i 0).val ∧ (i 0).val < n / 64 * 1024 + 1024; omega
  | ⟨1, _⟩ =>
    show win0_2.index ⟨n, hlt⟩ (1 : Fin 2) * 2048 ≤ (i 1).val ∧ (i 1).val < win0_2.index ⟨n, hlt⟩ (1 : Fin 2) * 2048 + 2048
    rw [e1]; show n / 16 % 4 * 2048 ≤ (i 1).val ∧ (i 1).val < n / 16 % 4 * 2048 + 2048; omega

/-- After the region the output array is the padded product. -/
theorem final (c : Dev nD) : (dats m 0 c).arrAt 2 cfg0.N = padded m c :=
  (dats m 0 c).arrAt_eq_of_cover 2 (padded m c) (flushed_eq m c) cover

end Cert.KernelIdeal.Product

end
-- ==== Proof.Spec.lean ====
/- What both programs compute: `out[b, o] = ∑ₖ x[b, k] · w[o, k]`, the contraction of the two operands along
   their second axes, over the extended reals. -/
import Idealize.ShloMosaic.Lib.ValueIdx

noncomputable section

namespace Cert.Einsum

open Idealize.ShloMosaic Idealize.ShloMosaic.ValueIdx

/-- The einsum `bi,oi->bo` of a 4096×4096 and an 8128×4096 array. -/
def einsum (x : (⟨2, ![4096, 4096]⟩ : Shape).Idx → EReal) (w : (⟨2, ![8128, 4096]⟩ : Shape).Idx → EReal) :
    (⟨2, ![4096, 8128]⟩ : Shape).Idx → EReal :=
  fun j => ∑ k : Fin 4096, x (ix2 (j 0) k) * w (ix2 (j 1) k)

end Cert.Einsum

end
-- ==== Proof.Result.lean ====
/- Around the region. Before it the host pads the second operand with 64 zero rows (rows below 8128 are the
   operand's own); after it the host keeps the first 8128 columns of the padded product. A kept column
   `o < 8128` only ever meets row `o` of the padded operand, which is row `o` of the operand itself, so the
   kernel's result is the einsum of its two arguments; the padding rows' value is never read. -/
import proofs.«115382_j3298534883714_1_alg».proof.Proof.Product
import proofs.«115382_j3298534883714_1_alg».proof.Proof.Spec
import Idealize.ShloMosaic.Lib.KernelVsHost
import Idealize.ShloMosaic.Lib.StableHlo.Run

noncomputable section

namespace Cert.KernelIdeal.Result

open Cert.KernelIdeal Cert.KernelIdeal.Gen Cert.KernelIdeal.Blocks Cert.KernelIdeal.Product Cert.Einsum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The region finds the second operand padded at the high end of its rows. -/
theorem warr_eq (c : Dev nD) :
    warr m c = pad S8192x4096 ![0, 0] ![64, 0] ![0, 0] (m ((c : Thread nD τ).loc main_arg1))
      (sitofp (F := Ideal) .f32 (constantI S_ 32 0#32)) pads_S8128x4096_S8192x4096_0640_000 h_S_ := by
  show StableHlo.after hostOps0 (fun b => m (c, b)) (Proc.devRef .tc main_call0_v0) = _
  after_results
  rfl

/-- Below row 8128 the padded operand is the operand. -/
theorem warr_inside (c : Dev nD) (o : Fin 8128) (o' : Fin 8192) (ho : o'.val = o.val) (k : Fin 4096) :
    warr m c (ix2 o' k) = m ((c : Thread nD τ).loc main_arg1) (ix2 o k) := by
  rw [warr_eq]
  refine pad_apply_of_inside _ _ _ _ _ _ _ (ix2 o' k) (ix2 o k) fun a => ?_
  match a with
  | ⟨0, _⟩ => show o'.val = 0 + o.val * (0 + 1); omega
  | ⟨1, _⟩ => show k.val = 0 + k.val * (0 + 1); omega

/-- The first operand reaches the region as launched. -/
theorem xarr_eq (c : Dev nD) : xarr m c = m ((c : Thread nD τ).loc main_arg0) := V_main_arg0 m c

/-- The kept columns of the padded product are the einsum of the two arguments. -/
theorem slice_padded (c : Dev nD) :
    extractStridedSlice S4096x8128 ![0, 0] (padded m c) slices_S4096x8192_S4096x8128_0_0
      = einsum (m ((c : Thread nD τ).loc main_arg0)) (m ((c : Thread nD τ).loc main_arg1)) := by
  funext j
  have hj : (j 1).val < 8128 := (j 1).isLt
  refine (extractStridedSlice_apply _ _ _ j (ix2 (j 0) (⟨(j 1).val, by omega⟩ : Fin 8192)) fun a => ?_).trans ?_
  · match a with
    | ⟨0, _⟩ => show (j 0).val = 0 + (j 0).val; omega
    | ⟨1, _⟩ => show (j 1).val = 0 + (j 1).val; omega
  · show mm (xarr m c) (warr m c) (j 0) ⟨(j 1).val, _⟩ = _
    unfold mm einsum
    refine Finset.sum_congr rfl fun k _ => ?_
    rw [xarr_eq, warr_inside m c (j 1) ⟨(j 1).val, _⟩ rfl k]

/-- The host line after the region writes the result buffer with those kept columns. -/
theorem tail_eq (c : Dev nD) :
    Pipeline.afterTail₀ cfgs (dats m) 0 (V0 m) [hostOps1] c main_v0
      = einsum (m ((c : Thread nD τ).loc main_arg0)) (m ((c : Thread nD τ).loc main_arg1)) := by
  unfold Pipeline.afterTail₀
  show StableHlo.after hostOps1 _ (Proc.devRef .tc main_v0) = _
  after_results
  rw [(Pipeline.withArrays_arr spec0 launch0.win.arr_inj c _ _ 2).trans (final m c)]
  exact slice_padded m c

/-- The kernel's run: the result buffer ends at the einsum of the arguments, which end unchanged. -/
theorem run : θ_run defs (onTc (τ := τ) (main (F := Ideal))) ⟨m, fun _ => 0, ρ⟩ fun r => ∀ c : Dev nD,
      r.2.mem ((c.tc : Thread nD τ).loc main_v0) = einsum (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v0 (Pipeline.mem_restRefs_of main_v0 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Result

end
-- ==== Proof.RefSide.lean ====
/- The reference side: the host `dot_general` contracts both operands along their second axis, so its
   result at an entry is the einsum's sum, term for term. -/
import proofs.«115382_j3298534883714_1_alg».proof.Proof.Gen.ReferenceIdeal.Read
import proofs.«115382_j3298534883714_1_alg».proof.Proof.Spec

noncomputable section

namespace Cert.EinsumRef

open Cert.ReferenceIdeal Cert.ReferenceIdeal.Read Cert.Einsum Idealize.ShloMosaic Idealize.ShloMosaic.ValueIdx

/-- The left operand is read at (the entry's row, the contraction index), -/
theorem lidx_eq (i : S4096x8128.Idx) (k : Fin 4096) : lidx_main_v0 i k = ix2 (i 0) k :=
  funext fun a => Fin.ext (by match a with | ⟨0, _⟩ => rfl | ⟨1, _⟩ => rfl)
/-- the right operand at (the entry's column, the contraction index). -/
theorem ridx_eq (i : S4096x8128.Idx) (k : Fin 4096) : ridx_main_v0 i k = ix2 (i 1) k :=
  funext fun a => Fin.ext (by match a with | ⟨0, _⟩ => rfl | ⟨1, _⟩ => rfl)

/-- The reference's result is the einsum of its arguments. -/
theorem reference_eq (x : (⟨S4096x4096, .f32⟩ : BufTy).Contents (Elt Ideal)) (w : (⟨S8128x4096, .f32⟩ : BufTy).Contents (Elt Ideal)) :
    val_main_v0 (F := Ideal) x w = einsum x w := by
  funext i
  rw [val_main_v0_apply]
  exact Finset.sum_congr rfl fun k _ => congrArg₂ (· * ·) (congrArg x (lidx_eq i k)) (congrArg w (ridx_eq i k))

end Cert.EinsumRef

end
-- ==== Proof.lean ====
/- The proof of `Cert.Claim`: a tiled matrix product against one whole einsum.

   The kernel pads the second operand `w` (8128×4096) with 64 zero rows, computes `x · wᵀ` on a 4×4×16 grid — each
   of the sixteen output blocks of 1024×2048 accumulated in a scratch block over sixteen contraction blocks of 256,
   the operands narrowed to bf16 on the way in, which is the identity on extended reals — and keeps the first 8128
   columns. The reference is `einsum('bi,oi->bo', x, w)`, one `dot_general`. Over the extended reals both results
   are `∑ₖ x[b,k]·w[o,k]` at every `(b, o)`: the kernel's sixteen partial sums regroup the reference's one sum
   (addition is a commutative monoid there, so no finiteness is used), and a kept column never meets a padding row.

   The frames of the two kernel programs are the generated ones; the reference's frame is its generated run with
   the result dropped; the idealization rewrote nothing, so `preserves` is trivial. -/
import proofs.«115382_j3298534883714_1_alg».proof.Defs
import proofs.«115382_j3298534883714_1_alg».proof.Proof.Gen.Kernel
import proofs.«115382_j3298534883714_1_alg».proof.Proof.Gen.Kernel.Skeleton
import proofs.«115382_j3298534883714_1_alg».proof.Proof.Gen.Kernel.Launch
import proofs.«115382_j3298534883714_1_alg».proof.Proof.Gen.Kernel.Points
import proofs.«115382_j3298534883714_1_alg».proof.Proof.Gen.Kernel.Frame
import proofs.«115382_j3298534883714_1_alg».proof.Proof.Gen.KernelIdeal
import proofs.«115382_j3298534883714_1_alg».proof.Proof.Gen.KernelIdeal.Skeleton
import proofs.«115382_j3298534883714_1_alg».proof.Proof.Gen.KernelIdeal.Launch
import proofs.«115382_j3298534883714_1_alg».proof.Proof.Gen.KernelIdeal.Points
import proofs.«115382_j3298534883714_1_alg».proof.Proof.Gen.KernelIdeal.Frame
import proofs.«115382_j3298534883714_1_alg».proof.Proof.Gen.ReferenceIdeal
import proofs.«115382_j3298534883714_1_alg».proof.Proof.Gen.ReferenceIdeal.Run
import proofs.«115382_j3298534883714_1_alg».proof.Proof.Gen.ReferenceIdeal.Read
import proofs.«115382_j3298534883714_1_alg».proof.Proof.Gen.Pre_finite_inputs
import proofs.«115382_j3298534883714_1_alg».proof.Proof.Result
import proofs.«115382_j3298534883714_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the einsum of arguments that agree. -/
theorem algebraic : Cert.algebraic_KernelIdeal_ReferenceIdeal := by
  intro m ρ m' ρ' _ hagree
  refine ⟨fun c => Cert.Einsum.einsum (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.EinsumRef.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
